-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S64x64 : Shape := ⟨2, ![64, 64]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S128x128 .f32) (main_arg1 : FVec F S64x64 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S128x128 : Shape := ⟨2, ![128, 128]⟩
abbrev S64x64 : Shape := ⟨2, ![64, 64]⟩
abbrev S8192x8192 : Shape := ⟨2, ![8192, 8192]⟩
abbrev S8x128 : Shape := ⟨2, ![8, 128]⟩
abbrev S512x8192 : Shape := ⟨2, ![512, 8192]⟩
abbrev S64x8192 : Shape := ⟨2, ![64, 8192]⟩
abbrev S1x128 : Shape := ⟨2, ![1, 128]⟩
abbrev S128 : Shape := ⟨1, ![128]⟩
abbrev S1x128x1 : Shape := ⟨3, ![1, 128, 1]⟩
abbrev S1x128x64 : Shape := ⟨3, ![1, 128, 64]⟩
abbrev S1x8192 : Shape := ⟨2, ![1, 8192]⟩

abbrev nBuf : Space → Nat
  | .hbm => 3
  | .vmem => 5
  | .smem => 0
  | _ => 0

abbrev bufTy : (tb : Table) → Fin (tcTables nBuf tb) → BufTy
  | .hbm, ⟨0, _⟩ => ⟨S128x128, .f32⟩
  | .hbm, ⟨1, _⟩ => ⟨S64x64, .f32⟩
  | .hbm, ⟨2, _⟩ => ⟨S8192x8192, .f32⟩
  | .local _ .vmem, ⟨0, _⟩ => ⟨S8x128, .f32⟩
  | .local _ .vmem, ⟨1, _⟩ => ⟨S8x128, .f32⟩
  | .local _ .vmem, ⟨2, _⟩ => ⟨S64x64, .f32⟩
  | .local _ .vmem, ⟨3, _⟩ => ⟨S512x8192, .f32⟩
  | .local _ .vmem, ⟨4, _⟩ => ⟨S512x8192, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x64_S64x64_0_0 : ∀ a, (![0, 0] : Fin 2 → Nat) a + S64x64.size a ≤ S64x64.size a
  h_S64x64 : 0 < S64x64.numel
  concatenates_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x8192_d1 : Shape.Concatenates (S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: S64x64 :: []) S64x8192 1
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128x1 : S128.ShapeCasts S1x128x1
  shapeCasts_S1x128x1_S1x128x1 : S1x128x1.ShapeCasts S1x128x1
  broadcasts_S1x128x1_S1x128x64 : S1x128x1.Broadcasts S1x128x64
  shapeCasts_S1x128x64_S1x8192 : S1x128x64.ShapeCasts S1x8192
  broadcasts_S1x8192_S64x8192 : S1x8192.Broadcasts S64x8192
  inb_S512x8192_S64x8192_0_0 : ∀ a, (![0, 0] : Fin 2 → Nat) a + S64x8192.size a ≤ S512x8192.size a
  h_S64x8192 : 0 < S64x8192.numel
  inb_S8x128_S1x128_1_0 : ∀ a, (![1, 0] : Fin 2 → Nat) a + S1x128.size a ≤ S8x128.size a
  inb_S512x8192_S64x8192_64_0 : ∀ a, (![64, 0] : Fin 2 → Nat) a + S64x8192.size a ≤ S512x8192.size a
  inb_S8x128_S1x128_2_0 : ∀ a, (![2, 0] : Fin 2 → Nat) a + S1x128.size a ≤ S8x128.size a
  inb_S512x8192_S64x8192_128_0 : ∀ a, (![128, 0] : Fin 2 → Nat) a + S64x8192.size a ≤ S512x8192.size a
  inb_S8x128_S1x128_3_0 : ∀ a, (![3, 0] : Fin 2 → Nat) a + S1x128.size a ≤ S8x128.size a
  inb_S512x8192_S64x8192_192_0 : ∀ a, (![192, 0] : Fin 2 → Nat) a + S64x8192.size a ≤ S512x8192.size a
  inb_S8x128_S1x128_4_0 : ∀ a, (![4, 0] : Fin 2 → Nat) a + S1x128.size a ≤ S8x128.size a
  inb_S512x8192_S64x8192_256_0 : ∀ a, (![256, 0] : Fin 2 → Nat) a + S64x8192.size a ≤ S512x8192.size a
  inb_S8x128_S1x128_5_0 : ∀ a, (![5, 0] : Fin 2 → Nat) a + S1x128.size a ≤ S8x128.size a
  inb_S512x8192_S64x8192_320_0 : ∀ a, (![320, 0] : Fin 2 → Nat) a + S64x8192.size a ≤ S512x8192.size a
  inb_S8x128_S1x128_6_0 : ∀ a, (![6, 0] : Fin 2 → Nat) a + S1x128.size a ≤ S8x128.size a
  inb_S512x8192_S64x8192_384_0 : ∀ a, (![384, 0] : Fin 2 → Nat) a + S64x8192.size a ≤ S512x8192.size a
  inb_S8x128_S1x128_7_0 : ∀ a, (![7, 0] : Fin 2 → Nat) a + S1x128.size a ≤ S8x128.size a
  inb_S512x8192_S64x8192_448_0 : ∀ a, (![448, 0] : Fin 2 → Nat) a + S64x8192.size a ≤ S512x8192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S128x128.size a
  hwx0_0 : ∀ i : grid0.Coords, EltTy.bits .f32 = 32 ∨ (Rect.block (s := S128x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .f32 = 32 ∨ (Rect.block (s := S8192x8192) S512x8192.size (cc0_transform_2 i) (hinb0_2 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x128 : Shape := ⟨2, ![128, 128]⟩
abbrev S64x64 : Shape := ⟨2, ![64, 64]⟩
abbrev S128x1x128x1 : Shape := ⟨4, ![128, 1, 128, 1]⟩
abbrev S1x64x1x64 : Shape := ⟨4, ![1, 64, 1, 64]⟩
abbrev S128x64x128x64 : Shape := ⟨4, ![128, 64, 128, 64]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S64x64, .f32⟩
  | .hbm, ⟨2, _⟩ => ⟨S128x1x128x1, .f32⟩
  | .hbm, ⟨3, _⟩ => ⟨S1x64x1x64, .f32⟩
  | .hbm, ⟨4, _⟩ => ⟨S128x64x128x64, .f32⟩
  | .hbm, ⟨5, _⟩ => ⟨S128x64x128x64, .f32⟩
  | .hbm, ⟨6, _⟩ => ⟨S128x64x128x64, .f32⟩
  | .hbm, ⟨7, _⟩ => ⟨S8192x8192, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S128x128_S128x1x128x1_0_2 : S128x128.BroadcastsInDim S128x1x128x1 (![0, 2] : Fin 2 → Fin S128x1x128x1.rank)
  bcast_S64x64_S1x64x1x64_1_3 : S64x64.BroadcastsInDim S1x64x1x64 (![1, 3] : Fin 2 → Fin S1x64x1x64.rank)
  bcast_S128x1x128x1_S128x64x128x64_0_1_2_3 : S128x1x128x1.BroadcastsInDim S128x64x128x64 (![0, 1, 2, 3] : Fin 4 → Fin S128x64x128x64.rank)
  bcast_S1x64x1x64_S128x64x128x64_0_1_2_3 : S1x64x1x64.BroadcastsInDim S128x64x128x64 (![0, 1, 2, 3] : Fin 4 → Fin S128x64x128x64.rank)
  shapeCasts_S128x64x128x64_S8192x8192 : S128x64x128x64.ShapeCasts S8192x8192

variable [Facts₀]

class Facts : Prop extends Facts₀ where

variable [Facts]
-- ==== Proof.Stripe.lean ====
/-
  One stripe of an output block. The kernel body takes row `r` of the left factor's 8×128 block as a [1,128] vector,
  spreads each of its 128 entries over 64 consecutive lanes (the casts [1,128] → [128] → [1,128,1], the broadcast to
  [1,128,64], the cast to [1,8192]), repeats that lane row on 64 sublanes, and multiplies it entry by entry with the
  right factor's 64×64 block laid 128 times side by side. Read at sublane `p` and lane `q` the product is
  `a[q / 64] · b[p, q % 64]`: lane `q` lies in copy `q / 64` of the right factor, at its column `q % 64`, and the
  spread row holds entry `q / 64` of the left factor's row there. All eight stripes of the body are this one function.
-/
import proofs.«164047_j78486232367279_1_alg».proof.Proof.Gen.KernelIdeal.Skeleton
import Idealize.ShloMosaic.Lib.Pipeline.Value
import Idealize.ShloMosaic.Lib.ValueIdx
import Idealize.ShloMosaic.Lib.ValueLayout

set_option maxRecDepth 65536

noncomputable section

namespace Cert.KernelIdeal.Stripe

open Cert.KernelIdeal Cert.KernelIdeal.Gen Idealize.ShloMosaic Idealize.ShloMosaic.ValueIdx

variable {F : FTy → Type} [FloatOps F]

/-- Lane `q` of a stripe lies in copy `q / 64` of the right factor … -/
def copyOf (q : Fin 8192) : Fin 128 := ⟨q.val / 64, by have := q.isLt; omega⟩
/-- … at that copy's column `q % 64`. -/
def colOf (q : Fin 8192) : Fin 64 := ⟨q.val % 64, Nat.mod_lt _ (by decide)⟩

/-- The right factor laid 128 times side by side, at sublane `p` and lane `q`: its entry `(p, q % 64)`. -/
theorem tiled_apply (v0 : Vec F S64x64 .f32) (p : Fin 64) (q : Fin 8192) :
    k0_pay5 v0 (ix2 p q) = v0 (ix2 p (colOf q)) := by
  unfold k0_pay5
  refine concatenate_replicate_apply (t := S64x8192) (s₁ := S64x64) (1 : Fin 2) 128 v0 _ rfl (ix2 p q) (ix2 p (colOf q)) rfl ?_
  intro b hb
  match b with
  | ⟨0, _⟩ => rfl
  | ⟨1, _⟩ => exact absurd rfl hb

/-- A row vector [1,128] spread over the lanes, each entry over 64 consecutive lanes, and repeated on 64 sublanes:
    at sublane `p` and lane `q` it holds the row's entry `q / 64`. -/
theorem spread_apply (v : Vec F S1x128 .f32) (p : Fin 64) (q : Fin 8192) :
    broadcastTo S64x8192 (shapeCast S1x8192 (broadcastTo S1x128x64 (shapeCast S1x128x1 (shapeCast S1x128x1 (shapeCast S128 v
      shapeCasts_S1x128_S128) shapeCasts_S128_S1x128x1) shapeCasts_S1x128x1_S1x128x1) broadcasts_S1x128x1_S1x128x64)
      shapeCasts_S1x128x64_S1x8192) broadcasts_S1x8192_S64x8192 (ix2 p q) = v (ix2 (0 : Fin 1) (copyOf q)) := by
  rw [broadcastTo_1b_ab_apply, shapeCast_self]
  rw [shapeCast_apply _ shapeCasts_S1x128x64_S1x8192 (ix2 (0 : Fin 1) q) (ix3 (0 : Fin 1) (copyOf q) (colOf q)) (by
    rw [Shape.rowMajor_val_three, Shape.rowMajor_val_two]
    show ((0 * 128 + q.val / 64) * 64 + q.val % 64) = 0 * 8192 + q.val
    omega)]
  rw [broadcastTo_apply _ broadcasts_S1x128x1_S1x128x64 (ix3 (0 : Fin 1) (copyOf q) (colOf q)) (ix3 (0 : Fin 1) (copyOf q) (0 : Fin 1)) (fun a => by
    match a with
    | ⟨0, _⟩ => rfl
    | ⟨1, _⟩ => rfl
    | ⟨2, _⟩ => rfl)]
  rw [shapeCast_apply _ shapeCasts_S128_S1x128x1 (ix3 (0 : Fin 1) (copyOf q) (0 : Fin 1)) (ix1 (copyOf q)) (by
    rw [Shape.rowMajor_val_three, Shape.rowMajor_val_one]
    show (copyOf q).val = (0 * 128 + (copyOf q).val) * 1 + 0
    omega)]
  exact shapeCast_1a_a_apply v shapeCasts_S1x128_S128 (copyOf q)

/-- A stripe at sublane `p` and lane `q`: the left factor's row entry `q / 64` times the right factor's entry `(p, q % 64)`. -/
theorem stripe_apply (v0 : Vec F S64x64 .f32) (v : Vec F S1x128 .f32) (p : Fin 64) (q : Fin 8192) :
    k0_pay6 v0 v (ix2 p q) = FloatOps.mulf (v (ix2 (0 : Fin 1) (copyOf q))) (v0 (ix2 p (colOf q))) := by
  unfold k0_pay6
  show FloatOps.mulf _ _ = _
  rw [spread_apply, tiled_apply]

/-- The eight stripes of the body are one function of the right factor's block and a row of the left factor's. -/
theorem pay1_eq (v0 : Vec F S64x64 .f32) (v : Vec F S1x128 .f32) : k0_pay1 (k0_pay5 v0) v = k0_pay6 v0 v := rfl
theorem pay2_eq (v0 : Vec F S64x64 .f32) (v : Vec F S1x128 .f32) : k0_pay2 (k0_pay5 v0) v = k0_pay6 v0 v := rfl
theorem pay3_eq (v0 : Vec F S64x64 .f32) (v : Vec F S1x128 .f32) : k0_pay3 (k0_pay5 v0) v = k0_pay6 v0 v := rfl
theorem pay4_eq (v0 : Vec F S64x64 .f32) (v : Vec F S1x128 .f32) : k0_pay4 (k0_pay5 v0) v = k0_pay6 v0 v := rfl
theorem pay7_eq (v0 : Vec F S64x64 .f32) (v : Vec F S1x128 .f32) : k0_pay7 v0 v = k0_pay6 v0 v := rfl
theorem pay8_eq (v0 : Vec F S64x64 .f32) (v : Vec F S1x128 .f32) : k0_pay8 v0 v = k0_pay6 v0 v := rfl
theorem pay9_eq (v0 : Vec F S64x64 .f32) (v : Vec F S1x128 .f32) : k0_pay9 v0 v = k0_pay6 v0 v := rfl

end Cert.KernelIdeal.Stripe

end
-- ==== Proof.Block.lean ====
/-
  What the kernel body leaves in an output block. The block is 512×8192: eight stripes of 64 rows, stripe `k` built from row `k`
  of the left factor's 8×128 block and the whole right factor. So entry `(y, z)` of the block is
  `a[y / 64, z / 64] · b[y % 64, z % 64]`, `a` the left factor's block and `b` the right factor: ONE function of the block index,
  of which every stripe is the part its rows name. The eight stores tile the block, so the block holds that function everywhere.
-/
import proofs.«164047_j78486232367279_1_alg».proof.Proof.Gen.KernelIdeal.Frame
import proofs.«164047_j78486232367279_1_alg».proof.Proof.Stripe

set_option maxRecDepth 65536

noncomputable section

namespace Cert.KernelIdeal.Block

open Cert.KernelIdeal Cert.KernelIdeal.Gen Cert.KernelIdeal.Stripe Idealize.ShloMosaic Idealize.ShloMosaic.ValueIdx

variable {F : FTy → Type} [FloatOps F]

/-- Row `y` of a block lies in stripe `y / 64`, which is built from that row of the left factor's block, … -/
def stripeOf (y : Fin 512) : Fin 8 := ⟨y.val / 64, by have := y.isLt; omega⟩
/-- … at the stripe's row `y % 64`, a row of the right factor. -/
def rowIn (y : Fin 512) : Fin 64 := ⟨y.val % 64, Nat.mod_lt _ (by decide)⟩

/-- The block as one function of its index: `a[y / 64, z / 64] · b[y % 64, z % 64]`. -/
def blockFn (x0 : Vec F S8x128 .f32) (x1 : Vec F S64x64 .f32) : Vec F S512x8192 .f32 := fun y =>
  FloatOps.mulf (x0 (ix2 (stripeOf (y 0)) (copyOf (y 1)))) (x1 (ix2 (rowIn (y 0)) (colOf (y 1))))

/-- Stripe `k`, computed from row `k` of the left factor's block and stored at rows `64 k …`, is that part of `blockFn`. -/
theorem stripe_eq (x0 : Vec F S8x128 .f32) (x1 : Vec F S64x64 .f32) (k o : Nat) (ho : o = 64 * k)
    (inbr : ∀ a, (![k, 0] : Fin 2 → Nat) a + S1x128.size a ≤ S8x128.size a)
    (inbo : ∀ a, (![o, 0] : Fin 2 → Nat) a + S64x8192.size a ≤ S512x8192.size a) (x : S64x8192.Idx) :
    k0_pay6 (View.ld x1 r0_0) (View.ld x0 (Rect.unit (s := S8x128) ![k, 0] S1x128.size inbr)) x
      = blockFn x0 x1 ((Rect.unit (s := S512x8192) ![o, 0] S64x8192.size inbo).emb x) := by
  obtain ⟨p, q, rfl⟩ : ∃ (p : Fin 64) (q : Fin 8192), x = ix2 p q := ⟨x 0, x 1, eq_ix2 x⟩
  rw [stripe_apply]
  unfold blockFn
  have hp : p.val < 64 := p.isLt
  have hq : q.val < 8192 := q.isLt
  congr 1
  · refine congrArg x0 (funext fun a => Fin.ext ?_)
    match a with
    | ⟨0, _⟩ => show k + 1 * 0 = (o + 1 * p.val) / 64; omega
    | ⟨1, _⟩ => show 0 + 1 * (q.val / 64) = (0 + 1 * q.val) / 64; omega
  · refine congrArg x1 (funext fun a => Fin.ext ?_)
    match a with
    | ⟨0, _⟩ => show 0 + 1 * p.val = (o + 1 * p.val) % 64; omega
    | ⟨1, _⟩ => show 0 + 1 * (q.val % 64) = (0 + 1 * q.val) % 64; omega

/-- After the body an output block holds `blockFn` of the two input blocks. -/
theorem out_eq (x0 : Vec F S8x128 .f32) (x1 : Vec F S64x64 .f32) : out0_2 x0 x1 = blockFn x0 x1 := by
  funext y
  unfold out0_2
  refine View.canon_apply_of_pieces (blockFn x0 x1) _ ?_ y (cover0_2 _ _ _ _ _ _ _ _ y)
  intro pc hpc x
  simp only [List.mem_cons, List.not_mem_nil, or_false] at hpc
  rcases hpc with rfl | rfl | rfl | rfl | rfl | rfl | rfl | rfl
  · exact (congrFun (pay4_eq _ _) x).trans (stripe_eq x0 x1 7 448 rfl inb_S8x128_S1x128_7_0 inb_S512x8192_S64x8192_448_0 x)
  · exact (congrFun (pay3_eq _ _) x).trans (stripe_eq x0 x1 6 384 rfl inb_S8x128_S1x128_6_0 inb_S512x8192_S64x8192_384_0 x)
  · exact (congrFun (pay2_eq _ _) x).trans (stripe_eq x0 x1 5 320 rfl inb_S8x128_S1x128_5_0 inb_S512x8192_S64x8192_320_0 x)
  · exact (congrFun (pay1_eq _ _) x).trans (stripe_eq x0 x1 4 256 rfl inb_S8x128_S1x128_4_0 inb_S512x8192_S64x8192_256_0 x)
  · exact (congrFun (pay9_eq _ _) x).trans (stripe_eq x0 x1 3 192 rfl inb_S8x128_S1x128_3_0 inb_S512x8192_S64x8192_192_0 x)
  · exact (congrFun (pay8_eq _ _) x).trans (stripe_eq x0 x1 2 128 rfl inb_S8x128_S1x128_2_0 inb_S512x8192_S64x8192_128_0 x)
  · exact (congrFun (pay7_eq _ _) x).trans (stripe_eq x0 x1 1 64 rfl inb_S8x128_S1x128_1_0 inb_S512x8192_S64x8192_64_0 x)
  · exact stripe_eq x0 x1 0 0 rfl inb_S8x128_S1x128_0_0 inb_S512x8192_S64x8192_0_0 x

end Cert.KernelIdeal.Block

end
-- ==== Proof.Kron.lean ====
/-
  The Kronecker product of a 128×128 matrix `A` by a 64×64 matrix `B`, as one function of the two matrices:
  entry `(r, s)` of the 8192×8192 result is `A[r / 64, s / 64] · B[r % 64, s % 64]`. Each entry is ONE product of one entry
  of each factor, so the statement holds for any arithmetic on the entries: nothing is summed, reordered or cancelled.
-/
import Idealize.ShloMosaic.Lib.ValueIdx

noncomputable section

namespace Cert.Kron

open Idealize.ShloMosaic Idealize.ShloMosaic.ValueIdx

variable {F : FTy → Type} [FloatOps F]

/-- Which entry of `A` a row or column of the product takes: the quotient by 64 … -/
def outer (r : Fin 8192) : Fin 128 := ⟨r.val / 64, by have := r.isLt; omega⟩
/-- … and which entry of `B`: the remainder. -/
def inner (r : Fin 8192) : Fin 64 := ⟨r.val % 64, Nat.mod_lt _ (by decide)⟩

/-- The Kronecker product, entry by entry. -/
def kron (A : (⟨2, ![128, 128]⟩ : Shape).Idx → F .f32) (B : (⟨2, ![64, 64]⟩ : Shape).Idx → F .f32) :
    (⟨2, ![8192, 8192]⟩ : Shape).Idx → F .f32 := fun i =>
  FloatOps.mulf (A (ix2 (outer (i 0)) (outer (i 1)))) (B (ix2 (inner (i 0)) (inner (i 1))))

end Cert.Kron

end
-- ==== Proof.KernelKron.lean ====
/-
  The kernel computes the Kronecker product. Grid point `t` (of 16) takes rows `8 t … 8 t + 7` of the left factor `A` and the whole
  right factor `B`, and writes back rows `512 t … 512 t + 511` of the result, all 8192 columns. Inside the block, entry `(y, z)` is
  `a[y / 64, z / 64] · b[y % 64, z % 64]` with `a` the eight rows of `A`; at the array's row `r = 512 t + y` that is
  `A[r / 64, z / 64] · B[r % 64, z % 64]`, because `512 t + y = 64 (8 t + y / 64) + y % 64`. So every point writes its block of the
  one product, and the sixteen blocks cover the array: row `r` lies in the block of point `r / 512`.
-/
import proofs.«164047_j78486232367279_1_alg».proof.Proof.Gen.KernelIdeal.Value
import proofs.«164047_j78486232367279_1_alg».proof.Proof.Block
import proofs.«164047_j78486232367279_1_alg».proof.Proof.Kron

set_option maxRecDepth 65536

noncomputable section

namespace Cert.KernelIdeal.KernelKron

open Cert.KernelIdeal Cert.KernelIdeal.Gen Cert.KernelIdeal.Block Cert.KernelIdeal.Stripe Cert.Kron
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The printed index maps over the grid: the left factor's and the result's blocks move down with the point, the right
    factor's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the Kronecker product of the two argument arrays. -/
theorem flushed_eq (c : Dev nD) (t : Fin cfg0.N) :
    (dats m 0 c).flushed 2 t = ((cfg0.win 2).blk t).view.read (Elt F) (kron (V m c main_arg0) (V m c main_arg1)) := by
  rw [Value.flushed2, out_eq]
  obtain ⟨e0, e1, e2, e3, e4, e5⟩ := idx_facts t
  have ht : t.val < 16 := t.isLt
  funext j
  show FloatOps.mulf (V m c main_arg0 (((cfg0.win 0).blk t).view.emb (ix2 (stripeOf (j 0)) (copyOf (j 1)))))
      (V m c main_arg1 (((cfg0.win 1).blk t).view.emb (ix2 (rowIn (j 0)) (colOf (j 1)))))
    = FloatOps.mulf (V m c main_arg0 (ix2 (outer ((((cfg0.win 2).blk t).view.emb j) 0)) (outer ((((cfg0.win 2).blk t).view.emb j) 1))))
      (V m c main_arg1 (ix2 (inner ((((cfg0.win 2).blk t).view.emb j) 0)) (inner ((((cfg0.win 2).blk t).view.emb j) 1))))
  have hj0 : (j 0).val < 512 := (j 0).isLt
  have hj1 : (j 1).val < 8192 := (j 1).isLt
  congr 1
  · refine congrArg (V m c main_arg0) (funext fun a => Fin.ext ?_)
    match a with
    | ⟨0, _⟩ =>
      show win0_0.index t (0 : Fin 2) * 8 + 1 * ((j 0).val / 64) = (win0_2.index t (0 : Fin 2) * 512 + 1 * (j 0).val) / 64
      omega
    | ⟨1, _⟩ =>
      show win0_0.index t (1 : Fin 2) * 128 + 1 * ((j 1).val / 64) = (win0_2.index t (1 : Fin 2) * 8192 + 1 * (j 1).val) / 64
      omega
  · refine congrArg (V m c main_arg1) (funext fun a => Fin.ext ?_)
    match a with
    | ⟨0, _⟩ =>
      show win0_1.index t (0 : Fin 2) * 64 + 1 * ((j 0).val % 64) = (win0_2.index t (0 : Fin 2) * 512 + 1 * (j 0).val) % 64
      omega
    | ⟨1, _⟩ =>
      show win0_1.index t (1 : Fin 2) * 64 + 1 * ((j 1).val % 64) = (win0_2.index t (1 : Fin 2) * 8192 + 1 * (j 1).val) % 64
      omega

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S512x8192.size a ≤ (i a).val ∧ (i a).val < win0_2.index t a * S512x8192.size a + S512x8192.size a := by
  show i ∈ ((View.whole main_v0).slice (win0_2.rect t)).set ↔ _
  rw [View.set_slice_whole, Rect.mem_set_unit]
  exact Iff.rfl

/-- Every point's block index is some grid point's: row block `q` belongs to point `q`. -/
theorem idx_onto : ∀ q : Fin 16, ∃ t : Fin cfg0.N, win0_2.index t = ![q.val, 0] :=
  (by decide +kernel : ∀ q : Fin 16, ∃ t : Fin grid0.N, win0_2.index t = ![q.val, 0])

/-- The sixteen blocks cover the result: row `r` lies in the block of point `r / 512`. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 8192 ≤ (i 1).val ∧ (i 1).val < win0_2.index t (1 : Fin 2) * 8192 + 8192; omega

/-- After the run the result array is the Kronecker product of the argument arrays. -/
theorem final (c : Dev nD) : (dats m 0 c).arrAt 2 cfg0.N
    = kron (m ((c : Thread nD τ).loc main_arg0)) (m ((c : Thread nD τ).loc main_arg1)) :=
  (dats m 0 c).arrAt_eq_of_cover 2 (kron (V m c main_arg0) (V m c main_arg1)) (fun t _ => flushed_eq m c t) cover

/-- The kernel's run: the result array ends at the Kronecker product of the arguments, the arguments unchanged. -/
theorem run : θ_run defs (onTc (τ := τ) (main (F := F))) ⟨m, fun _ => 0, ρ⟩ fun r => ∀ c : Dev nD,
      r.2.mem ((c : Thread nD τ).loc main_v0) = kron (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelKron

end
-- ==== Proof.RefKron.lean ====
/-
  The reference computes the Kronecker product. It lays `A` out as [128,1,128,1] and `B` as [1,64,1,64], repeats both to
  [128,64,128,64], multiplies entry by entry, so that entry `(i, p, j, q)` is `A[i,j] · B[p,q]`, and reads the four-axis array
  row-major as 8192×8192: entry `(r, s)` of the result sits at `i = r / 64`, `p = r % 64`, `j = s / 64`, `q = s % 64`.
-/
import proofs.«164047_j78486232367279_1_alg».proof.Proof.Gen.ReferenceIdeal.Read
import proofs.«164047_j78486232367279_1_alg».proof.Proof.Kron

noncomputable section

namespace Cert.ReferenceIdeal.RefKron

open Cert.ReferenceIdeal Cert.ReferenceIdeal.Read Cert.Kron Idealize.ShloMosaic Idealize.ShloMosaic.ValueIdx

variable {F : FTy → Type} [FloatOps F]

/-- The reference's result, as a function of its two arguments, is their Kronecker product. -/
theorem result_eq (x0 : (⟨S128x128, .f32⟩ : BufTy).Contents (Elt F)) (x1 : (⟨S64x64, .f32⟩ : BufTy).Contents (Elt F)) :
    val_main_v5 (F := F) x0 x1 = kron x0 x1 := by
  funext i
  rw [val_main_v5_apply, val_main_v4_apply, val_main_v2_apply, val_main_v0_apply, val_main_v3_apply, val_main_v1_apply]
  unfold kron
  have h0 : (i 0).val < 8192 := (i 0).isLt
  have h1 : (i 1).val < 8192 := (i 1).isLt
  congr 1
  · refine congrArg x0 (funext fun a => Fin.ext ?_)
    match a with
    | ⟨0, _⟩ => show ((i 0).val * 8192 + (i 1).val) / 524288 = (i 0).val / 64; omega
    | ⟨1, _⟩ => show ((i 0).val * 8192 + (i 1).val) / 64 % 128 = (i 1).val / 64; omega
  · refine congrArg x1 (funext fun a => Fin.ext ?_)
    match a with
    | ⟨0, _⟩ => show ((i 0).val * 8192 + (i 1).val) / 8192 % 64 = (i 0).val % 64; omega
    | ⟨1, _⟩ => show ((i 0).val * 8192 + (i 1).val) % 64 = (i 1).val % 64; omega

end Cert.ReferenceIdeal.RefKron

end
-- ==== Proof.lean ====
/-
  The kernel and the reference both compute the Kronecker product of a 128×128 matrix `A` by a 64×64 matrix `B`:
  entry `(r, s)` of the 8192×8192 result is `A[r / 64, s / 64] · B[r % 64, s % 64]` (Proof/Kron.lean).
  The kernel (Proof/Stripe.lean, Proof/Block.lean, Proof/KernelKron.lean) runs over 16 row blocks of `A`; for each of the 8 rows of a
  block it spreads the row over the lanes, 64 lanes an entry, and multiplies by `B` laid 128 times side by side, which gives 64
  rows of the result; the 8 stripes fill a 512×8192 block and the 16 blocks cover the result. The reference
  (Proof/RefKron.lean) forms the four-axis array `A[i,j] · B[p,q]` and reads it row-major as a matrix. Each entry on either side is
  the one product of the same two entries, in the same order, so the two results are equal for every input, finite or not:
  the precondition is not used. The three frames are the generated ones; the kernel's idealization rewrote nothing.
-/
import proofs.«164047_j78486232367279_1_alg».proof.Defs
import proofs.«164047_j78486232367279_1_alg».proof.Proof.Gen.Kernel
import proofs.«164047_j78486232367279_1_alg».proof.Proof.Gen.Kernel.Frame
import proofs.«164047_j78486232367279_1_alg».proof.Proof.Gen.KernelIdeal
import proofs.«164047_j78486232367279_1_alg».proof.Proof.Gen.KernelIdeal.Frame
import proofs.«164047_j78486232367279_1_alg».proof.Proof.Gen.KernelIdeal.Value
import proofs.«164047_j78486232367279_1_alg».proof.Proof.Gen.ReferenceIdeal
import proofs.«164047_j78486232367279_1_alg».proof.Proof.Gen.ReferenceIdeal.Run
import proofs.«164047_j78486232367279_1_alg».proof.Proof.Gen.ReferenceIdeal.Read
import proofs.«164047_j78486232367279_1_alg».proof.Proof.Gen.Pre_finite_inputs
import proofs.«164047_j78486232367279_1_alg».proof.Proof.KernelKron
import proofs.«164047_j78486232367279_1_alg».proof.Proof.RefKron
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the Kronecker product of their arguments in the result array. -/
theorem algebraic : Cert.algebraic_KernelIdeal_ReferenceIdeal := by
  intro m ρ m' ρ' _ hagree
  refine ⟨_, Cert.KernelIdeal.KernelKron.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.RefKron.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
